-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100 : Shape := ⟨2, ![1024, 100]⟩
abbrev S100x128 : Shape := ⟨2, ![100, 128]⟩
abbrev S_ : Shape := ⟨0, ![]⟩

class Facts : Prop where
  bcast_S_S1024x100 : S_.BroadcastsInDim S1024x100 (![] : Fin 0 → Fin S1024x100.rank)
  reducesTo_S1024x100_S_d0_1 : S1024x100.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_

variable [Facts]

def fn {F : FTy → Type} [FloatOps F] (main_arg0 : FVec F S1024x100 .f32) (main_arg1 : FVec F S100x128 .f32) : IVec S_ 1 :=
  let main_v0 : FVec F S1024x100 .f32 := Host.absf main_arg0
  let main_cst : FVec F S_ .f32 := constant S_ .f32 0x7F800000#32
  let main_v1 : FVec F S1024x100 .f32 := broadcastInDim S1024x100 ![] bcast_S_S1024x100 main_cst
  let main_v2 : IVec S1024x100 1 := cmpf .olt main_v0 main_v1
  let main_c : IVec S_ 1 := constantI S_ 1 1#1
  let main_v3 : IVec S_ 1 := (fun x v => Host.reduce IntOp.andi x v reducesTo_S1024x100_S_d0_1 h_S_) main_v2 main_c
  let main_v4 : FVec F S100x128 .f32 := Host.absf main_arg1
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  main_v8
-- ==== Kernel.lean ====
abbrev S1024x100 : Shape := ⟨2, ![1024, 100]⟩
abbrev S100x128 : Shape := ⟨2, ![100, 128]⟩
abbrev S1024x128 : Shape := ⟨2, ![1024, 128]⟩
abbrev S256x100 : Shape := ⟨2, ![256, 100]⟩
abbrev S256x128 : Shape := ⟨2, ![256, 128]⟩
abbrev S768x128 : Shape := ⟨2, ![768, 128]⟩

abbrev nBuf : Space → Nat
  | .hbm => 3
  | .vmem => 3
  | .smem => 0
  | _ => 0

abbrev bufTy : (tb : Table) → Fin (tcTables nBuf tb) → BufTy
  | .hbm, ⟨0, _⟩ => ⟨S1024x100, .f32⟩
  | .hbm, ⟨1, _⟩ => ⟨S100x128, .f32⟩
  | .hbm, ⟨2, _⟩ => ⟨S1024x128, .f32⟩
  | .local _ .vmem, ⟨0, _⟩ => ⟨S256x100, .f32⟩
  | .local _ .vmem, ⟨1, _⟩ => ⟨S100x128, .f32⟩
  | .local _ .vmem, ⟨2, _⟩ => ⟨S1024x128, .f32⟩
  | _, _ => ⟨S1024x100, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S256x100_S256x100_0_0 : ∀ a, (![0, 0] : Fin 2 → Nat) a + S256x100.size a ≤ S256x100.size a
  h_S256x100 : 0 < S256x100.numel
  inb_S100x128_S100x128_0_0 : ∀ a, (![0, 0] : Fin 2 → Nat) a + S100x128.size a ≤ S100x128.size a
  h_S100x128 : 0 < S100x128.numel
  inb_S1024x128_S256x128_0_0 : ∀ a, (![0, 0] : Fin 2 → Nat) a + S256x128.size a ≤ S1024x128.size a
  h_S256x128 : 0 < S256x128.numel
  inb_S1024x128_S768x128_256_0 : ∀ a, (![256, 0] : Fin 2 → Nat) a + S768x128.size a ≤ S1024x128.size a
  h_S768x128 : 0 < S768x128.numel
  dot_S256x100_S100x128_S256x128_1_0_0_1_n_n_wf : DotDims.WF S256x100 S100x128 S256x128 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S256x100.size a ≤ S1024x100.size a
  hwx0_0 : ∀ i : grid0.Coords, EltTy.bits .f32 = 32 ∨ (Rect.block (s := S1024x100) S256x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .f32 = 32 ∨ (Rect.block (s := S100x128) S100x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)

variable [Facts₀]

def dot_S256x100_S100x128_S256x128_1_0_0_1_n_n : DotDims S256x100 S100x128 S256x128 where
  lhsContracting := [1]
  rhsContracting := [0]
  lhsNonContracting := [0]
  rhsNonContracting := [1]
  lhsBatch := []
  rhsBatch := []
  wf := dot_S256x100_S100x128_S256x128_1_0_0_1_n_n_wf

abbrev win0_0 : Pipeline.Window sig grid0 :=
  Pipeline.Window.ofSpec (Memref.whole main_arg0) S256x100.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x100 : Shape := ⟨2, ![1024, 100]⟩
abbrev S100x128 : Shape := ⟨2, ![100, 128]⟩
abbrev S256 : Shape := ⟨1, ![256]⟩
abbrev S1024x128 : Shape := ⟨2, ![1024, 128]⟩
abbrev S_ : Shape := ⟨0, ![]⟩
abbrev S256x1 : Shape := ⟨2, ![256, 1]⟩
abbrev S256x128 : Shape := ⟨2, ![256, 128]⟩

abbrev nBuf : Space → Nat
  | .hbm => 32
  | .vmem => 0
  | .smem => 0
  | _ => 0

abbrev bufTy : (tb : Table) → Fin (tcTables nBuf tb) → BufTy
  | .hbm, ⟨0, _⟩ => ⟨S1024x100, .f32⟩
  | .hbm, ⟨1, _⟩ => ⟨S100x128, .f32⟩
  | .hbm, ⟨2, _⟩ => ⟨S256, .i32⟩
  | .hbm, ⟨3, _⟩ => ⟨S1024x128, .f32⟩
  | .hbm, ⟨4, _⟩ => ⟨S1024x100, .f32⟩
  | .hbm, ⟨5, _⟩ => ⟨S100x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S_, .f32⟩
  | .hbm, ⟨10, _⟩ => ⟨S1024x128, .f32⟩
  | .hbm, ⟨11, _⟩ => ⟨S1024x128, .f32⟩
  | .hbm, ⟨12, _⟩ => ⟨S_, .f32⟩
  | .hbm, ⟨13, _⟩ => ⟨S1024x128, .f32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x128, .f32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S256x1, .i32⟩
  | .hbm, ⟨31, _⟩ => ⟨S1024x128, .f32⟩
  | _, _ => ⟨S1024x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S_S256 : S_.BroadcastsInDim S256 (![] : Fin 0 → Fin S256.rank)
  bcast_S256_S256x1_0 : S256.BroadcastsInDim S256x1 (![0] : Fin 1 → Fin S256x1.rank)
  dot_S1024x100_S100x128_S1024x128_1_0_0_1_n_n_wf : DotDims.WF S1024x100 S100x128 S1024x128 [1] [0] [0] [1] [] []
  gather_S1024x128_S256x1_S256x128_1_0_n_n_0_1_1128_wf : GatherDims.WF S1024x128 S256x1 S256x128 [1] [0] [] [0] [] 1 ![1, 128]
  scatter_S1024x128_S256x1_S256x128_1_0_0_1_wf : ScatterDims.WF S1024x128 S256x1 S256x128 [1] [0] [0] 1

variable [Facts₀]

def dot_S1024x100_S100x128_S1024x128_1_0_0_1_n_n : DotDims S1024x100 S100x128 S1024x128 where
  lhsContracting := [1]
  rhsContracting := [0]
  lhsNonContracting := [0]
  rhsNonContracting := [1]
  lhsBatch := []
  rhsBatch := []
  wf := dot_S1024x100_S100x128_S1024x128_1_0_0_1_n_n_wf
def gather_S1024x128_S256x1_S256x128_1_0_n_n_0_1_1128 : GatherDims S1024x128 S256x1 S256x128 where
  offsetDims := [1]
  collapsedSliceDims := [0]
  operandBatchingDims := []
  startIndicesBatchingDims := []
  startIndexMap := [0]
  indexVectorDim := 1
  sliceSizes := ![1, 128]
  wf := gather_S1024x128_S256x1_S256x128_1_0_n_n_0_1_1128_wf
def scatter_S1024x128_S256x1_S256x128_1_0_0_1 : ScatterDims S1024x128 S256x1 S256x128 where
  updateWindowDims := [1]
  insertedWindowDims := [0]
  scatterDimsToOperandDims := [0]
  indexVectorDim := 1
  wf := scatter_S1024x128_S256x1_S256x128_1_0_0_1_wf

class Facts : Prop extends Facts₀ where

variable [Facts]
-- ==== Proof.RefRun.lean ====
/-
  The reference program's run, read back.

  The reference is thirty host operations in a straight line: the two matrix products `x · E` and `x² · E²`, the
  pointwise `½ · ((x·E)² − x²·E²)` over all 1024 rows, then `zeros.at[rows].set(vec[rows])` for the literal row
  table `rows = 0, 1, …, 255` — a gather of those rows followed by a scatter of them into a zero array, each
  preceded by the index normalisation `select (rows < 0) (rows + 1024) rows`.
  Listed as operations, every weakly fair execution of the list terminates with each buffer at the composition of
  the operations' functions over the launch contents; the result buffer's composition is named `refOut` here, in
  three layers: the index table `rowIdx`, the pointwise values `refVec`, and the scatter of the gather.
-/
import proofs.«146309_g37744172598002_cont_sun_m_442_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The literal row table `0, 1, …, 255` as the program holds it. -/
def rowTable : IVec S256 32 := fun i => lit0 (S256.rowMajor i)

/-- The start indices both the gather and the scatter read: the row table with negative entries wrapped by the
    operand's 1024 rows (none is negative), as a column. -/
def rowIdx : IVec S256x1 32 :=
  broadcastInDim S256x1 ![0] bcast_S256_S256x1_0
    (select (cmpi .slt rowTable (broadcastInDim S256 ![] bcast_S_S256 (constantI S_ 32 0#32)))
      (addi rowTable (broadcastInDim S256 ![] bcast_S_S256 (constantI S_ 32 1024#32))) rowTable)

/-- `½ · ((x·E)² − x²·E²)` over all 1024 rows. -/
def refVec (x : FVec F S1024x100 .f32) (e : FVec F S100x128 .f32) : FVec F S1024x128 .f32 :=
  mulf (broadcastInDim S1024x128 ![] bcast_S_S1024x128 (constant S_ .f32 0x3F000000#32))
    (subf (mulf (Host.dotGeneral dot_S1024x100_S100x128_S1024x128_1_0_0_1_n_n none x e)
                (Host.dotGeneral dot_S1024x100_S100x128_S1024x128_1_0_0_1_n_n none x e))
      (Host.dotGeneral dot_S1024x100_S100x128_S1024x128_1_0_0_1_n_n none (mulf x x) (mulf e e)))

/-- The reference's result: the gathered rows of `refVec` written over a zero array at the same rows. -/
def refOut (x : FVec F S1024x100 .f32) (e : FVec F S100x128 .f32) : FVec F S1024x128 .f32 :=
  Host.scatter scatter_S1024x128_S256x1_S256x128_1_0_0_1 (fun _ b => b)
    (broadcastInDim S1024x128 ![] bcast_S_S1024x128 (constant S_ .f32 0x00000000#32)) rowIdx
    (Host.gather gather_S1024x128_S256x1_S256x128_1_0_n_n_0_1_1128 (refVec x e) rowIdx)

/-- @main's 30 operations, in order. -/
abbrev ops : List (HloOp τ sig (Elt F)) :=
  [ nullary main_c (fun i => lit0 (S256.rowMajor i)),
    binary main_arg0 main_arg1 main_v0 ((fun l r => Host.dotGeneral dot_S1024x100_S100x128_S1024x128_1_0_0_1_n_n none l r) : (⟨S1024x100, .f32⟩ : BufTy).Contents (Elt F) → (⟨S100x128, .f32⟩ : BufTy).Contents (Elt F) → (⟨S1024x128, .f32⟩ : BufTy).Contents (Elt F)),
    binary main_arg0 main_arg0 main_v1 (mulf : (⟨S1024x100, .f32⟩ : BufTy).Contents (Elt F) → (⟨S1024x100, .f32⟩ : BufTy).Contents (Elt F) → (⟨S1024x100, .f32⟩ : BufTy).Contents (Elt F)),
    binary main_arg1 main_arg1 main_v2 (mulf : (⟨S100x128, .f32⟩ : BufTy).Contents (Elt F) → (⟨S100x128, .f32⟩ : BufTy).Contents (Elt F) → (⟨S100x128, .f32⟩ : BufTy).Contents (Elt F)),
    binary main_v1 main_v2 main_v3 ((fun l r => Host.dotGeneral dot_S1024x100_S100x128_S1024x128_1_0_0_1_n_n none l r) : (⟨S1024x100, .f32⟩ : BufTy).Contents (Elt F) → (⟨S100x128, .f32⟩ : BufTy).Contents (Elt F) → (⟨S1024x128, .f32⟩ : BufTy).Contents (Elt F)),
    binary main_v0 main_v0 main_v4 (mulf : (⟨S1024x128, .f32⟩ : BufTy).Contents (Elt F) → (⟨S1024x128, .f32⟩ : BufTy).Contents (Elt F) → (⟨S1024x128, .f32⟩ : BufTy).Contents (Elt F)),
    binary main_v4 main_v3 main_v5 (subf : (⟨S1024x128, .f32⟩ : BufTy).Contents (Elt F) → (⟨S1024x128, .f32⟩ : BufTy).Contents (Elt F) → (⟨S1024x128, .f32⟩ : BufTy).Contents (Elt F)),
    nullary main_cst (constant S_ .f32 0x3F000000#32),
    unary main_cst main_v6 (broadcastInDim S1024x128 ![] bcast_S_S1024x128 : (⟨S_, .f32⟩ : BufTy).Contents (Elt F) → (⟨S1024x128, .f32⟩ : BufTy).Contents (Elt F)),
    binary main_v6 main_v5 main_v7 (mulf : (⟨S1024x128, .f32⟩ : BufTy).Contents (Elt F) → (⟨S1024x128, .f32⟩ : BufTy).Contents (Elt F) → (⟨S1024x128, .f32⟩ : BufTy).Contents (Elt F)),
    nullary main_cst_0 (constant S_ .f32 0x00000000#32),
    unary main_cst_0 main_v8 (broadcastInDim S1024x128 ![] bcast_S_S1024x128 : (⟨S_, .f32⟩ : BufTy).Contents (Elt F) → (⟨S1024x128, .f32⟩ : BufTy).Contents (Elt F)),
    nullary main_c_1 (constantI S_ 32 0#32),
    unary main_c_1 main_v9 (broadcastInDim S256 ![] bcast_S_S256 : (⟨S_, .i32⟩ : BufTy).Contents (Elt F) → (⟨S256, .i32⟩ : BufTy).Contents (Elt F)),
    binary main_c main_v9 main_v10 (cmpi .slt : (⟨S256, .i32⟩ : BufTy).Contents (Elt F) → (⟨S256, .i32⟩ : BufTy).Contents (Elt F) → (⟨S256, .i1⟩ : BufTy).Contents (Elt F)),
    nullary main_c_2 (constantI S_ 32 1024#32),
    unary main_c_2 main_v11 (broadcastInDim S256 ![] bcast_S_S256 : (⟨S_, .i32⟩ : BufTy).Contents (Elt F) → (⟨S256, .i32⟩ : BufTy).Contents (Elt F)),
    binary main_c main_v11 main_v12 (addi : (⟨S256, .i32⟩ : BufTy).Contents (Elt F) → (⟨S256, .i32⟩ : BufTy).Contents (Elt F) → (⟨S256, .i32⟩ : BufTy).Contents (Elt F)),
    ternary main_v10 main_v12 main_c main_v13 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v13 main_v14 (broadcastInDim S256x1 ![0] bcast_S256_S256x1_0 : (⟨S256, .i32⟩ : BufTy).Contents (Elt F) → (⟨S256x1, .i32⟩ : BufTy).Contents (Elt F)),
    binary main_v7 main_v14 main_v15 ((fun x i => Host.gather gather_S1024x128_S256x1_S256x128_1_0_n_n_0_1_1128 x i) : (⟨S1024x128, .f32⟩ : BufTy).Contents (Elt F) → (⟨S256x1, .i32⟩ : BufTy).Contents (Elt F) → (⟨S256x128, .f32⟩ : BufTy).Contents (Elt F)),
    nullary main_c_3 (constantI S_ 32 0#32),
    unary main_c_3 main_v16 (broadcastInDim S256 ![] bcast_S_S256 : (⟨S_, .i32⟩ : BufTy).Contents (Elt F) → (⟨S256, .i32⟩ : BufTy).Contents (Elt F)),
    binary main_c main_v16 main_v17 (cmpi .slt : (⟨S256, .i32⟩ : BufTy).Contents (Elt F) → (⟨S256, .i32⟩ : BufTy).Contents (Elt F) → (⟨S256, .i1⟩ : BufTy).Contents (Elt F)),
    nullary main_c_4 (constantI S_ 32 1024#32),
    unary main_c_4 main_v18 (broadcastInDim S256 ![] bcast_S_S256 : (⟨S_, .i32⟩ : BufTy).Contents (Elt F) → (⟨S256, .i32⟩ : BufTy).Contents (Elt F)),
    binary main_c main_v18 main_v19 (addi : (⟨S256, .i32⟩ : BufTy).Contents (Elt F) → (⟨S256, .i32⟩ : BufTy).Contents (Elt F) → (⟨S256, .i32⟩ : BufTy).Contents (Elt F)),
    ternary main_v17 main_v19 main_c main_v20 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v20 main_v21 (broadcastInDim S256x1 ![0] bcast_S256_S256x1_0 : (⟨S256, .i32⟩ : BufTy).Contents (Elt F) → (⟨S256x1, .i32⟩ : BufTy).Contents (Elt F)),
    ternary main_v8 main_v21 main_v15 main_v22 ((fun x i u => Host.scatter scatter_S1024x128_S256x1_S256x128_1_0_0_1 (fun _ b => b) x i u) : (⟨S1024x128, .f32⟩ : BufTy).Contents (Elt F) → (⟨S256x1, .i32⟩ : BufTy).Contents (Elt F) → (⟨S256x128, .f32⟩ : BufTy).Contents (Elt F) → (⟨S1024x128, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., binary_bufs_sub .., binary_bufs_sub .., binary_bufs_sub .., binary_bufs_sub ..,
    binary_bufs_sub .., nullary_bufs_sub .., unary_bufs_sub .., binary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., ternary_bufs_sub ..⟩

/-- On every device, from any memory with zero counters: every weakly fair execution of @main terminates with the
    result at `refOut` of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v22).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.HandRun

end
-- ==== Proof.LibScatterSet.lean ====
/-
  A `stablehlo.scatter` whose body returns the update (`x.at[idx].set(u)`), read at ONE index of its result.

  The scatter is a left fold over the update indices, in row-major order, of the step "overwrite the result
  at the index this update lands on, or do nothing when it lands outside the operand". What the fold leaves at
  an index `i` depends only on the updates that land on `i`:
    * if none lands there, the operand's own element survives;
    * if every update that lands there carries the same value `v` (in particular if exactly one does), and at
      least one does, the result holds `v` — whichever of them came last.
  Both facts are proved first for an abstract fold, whose step is only known by how it acts at a hit and off
  it, and then read off `Host.scatter` at any dimension numbers.
-/
import Idealize.ShloMosaic.PureOps.ShapeOps

namespace Idealize.ShloMosaic.ScatterSet

section Fold

variable {ι κ α : Type} (tgt : ι → Option κ) (val : ι → α) (stepf : (κ → α) → ι → κ → α)

/-- An index that no step of the list targets keeps the starting contents. -/
theorem foldl_apply_of_forall_ne (hmiss : ∀ r n i', tgt n ≠ some i' → stepf r n i' = r i') (i' : κ) :
    ∀ (L : List ι) (x : κ → α), (∀ n ∈ L, tgt n ≠ some i') → L.foldl stepf x i' = x i'
  | [], _, _ => rfl
  | n :: L, x, h => by
    rw [List.foldl_cons, foldl_apply_of_forall_ne hmiss i' L (stepf x n) fun n' hn' => h n' (List.mem_cons_of_mem _ hn')]
    exact hmiss x n i' (h n List.mem_cons_self)

/-- An index that some step targets, all the steps targeting it writing the one value `v`, ends at `v`. -/
theorem foldl_apply_of_hit (hhit : ∀ r n i, tgt n = some i → stepf r n i = val n)
    (hmiss : ∀ r n i', tgt n ≠ some i' → stepf r n i' = r i') (i' : κ) (v : α) :
    ∀ (L : List ι) (x : κ → α), (∃ n ∈ L, tgt n = some i') → (∀ n ∈ L, tgt n = some i' → val n = v) →
      L.foldl stepf x i' = v
  | [], _, h, _ => by obtain ⟨n, hn, _⟩ := h; exact absurd hn List.not_mem_nil
  | n :: L, x, h, hv => by
    rw [List.foldl_cons]
    by_cases hL : ∃ n' ∈ L, tgt n' = some i'
    · exact foldl_apply_of_hit hhit hmiss i' v L (stepf x n) hL fun n' hn' => hv n' (List.mem_cons_of_mem _ hn')
    · have hnone : ∀ n' ∈ L, tgt n' ≠ some i' := fun n' hn' ht => hL ⟨n', hn', ht⟩
      rw [foldl_apply_of_forall_ne tgt stepf hmiss i' L (stepf x n) hnone]
      obtain ⟨n₀, hn₀, ht⟩ := h
      rcases List.mem_cons.mp hn₀ with rfl | hn₀'
      · rw [hhit x n₀ i' ht]; exact hv n₀ List.mem_cons_self ht
      · exact absurd ht (hnone n₀ hn₀')

end Fold

section Scatter

variable {α : Type} {s si u : Shape} {w : Nat} (d : ScatterDims s si u) (x : s.Idx → α) (idx : IVec si w)
  (upd : u.Idx → α)

/-- The fold's step at a hit: the update's value. -/
private theorem step_hit (r : s.Idx → α) (n : Fin u.numel) (i : s.Idx)
    (h : d.resultIdx? (u.rowMajor.symm n) idx = some i) :
    (match d.resultIdx? (u.rowMajor.symm n) idx with
      | some i₀ => fun i' => if i' = i₀ then (fun _ b => b) (r i₀) (upd (u.rowMajor.symm n)) else r i'
      | none => r) i = upd (u.rowMajor.symm n) := by
  rw [h]; exact if_pos rfl

/-- The fold's step off its target: the contents before it. -/
private theorem step_miss (r : s.Idx → α) (n : Fin u.numel) (i' : s.Idx)
    (h : d.resultIdx? (u.rowMajor.symm n) idx ≠ some i') :
    (match d.resultIdx? (u.rowMajor.symm n) idx with
      | some i₀ => fun i' => if i' = i₀ then (fun _ b => b) (r i₀) (upd (u.rowMajor.symm n)) else r i'
      | none => r) i' = r i' := by
  generalize d.resultIdx? (u.rowMajor.symm n) idx = o at h ⊢
  cases o with
  | none => rfl
  | some i₀ =>
    dsimp only
    exact if_neg fun e => h (by rw [e])

/-- `x.at[idx].set(u)` at an index NO update lands on: the operand's element. -/
theorem scatter_set_apply_of_forall_ne (i : s.Idx) (h : ∀ j : u.Idx, d.resultIdx? j idx ≠ some i) :
    Host.scatter d (fun _ b => b) x idx upd i = x i := by
  unfold Host.scatter
  exact foldl_apply_of_forall_ne (fun n : Fin u.numel => d.resultIdx? (u.rowMajor.symm n) idx) _
    (fun r n i' hne => step_miss d idx upd r n i' hne) i _ x fun n _ => h _

/-- `x.at[idx].set(u)` at an index some update `j₀` lands on, every update landing there carrying the value
    `v` (so when `j₀` is the only one: `v = upd j₀`): the result holds `v`. -/
theorem scatter_set_apply_of_hit (i : s.Idx) (v : α) (j₀ : u.Idx) (h₀ : d.resultIdx? j₀ idx = some i)
    (hv : ∀ j : u.Idx, d.resultIdx? j idx = some i → upd j = v) :
    Host.scatter d (fun _ b => b) x idx upd i = v := by
  unfold Host.scatter
  exact foldl_apply_of_hit (fun n : Fin u.numel => d.resultIdx? (u.rowMajor.symm n) idx)
    (fun n => upd (u.rowMajor.symm n)) _
    (fun r n i' ht => step_hit d idx upd r n i' ht) (fun r n i' hne => step_miss d idx upd r n i' hne) i v _ x
    ⟨u.rowMajor j₀, List.mem_finRange _, by rw [Equiv.symm_apply_apply]; exact h₀⟩
    fun n _ ht => hv _ ht

end Scatter

end Idealize.ShloMosaic.ScatterSet
-- ==== Proof.LibRowIndex.lean ====
/-
  Whole rows of a matrix taken and put back by a column of row indices, read at one index, at any extents.

  `x[rows]` for a matrix `x : [N, C]` and `R` row indices lowers to a `stablehlo.gather` whose start indices are
  the column `[R, 1]`, with the row axis collapsed and the column axis an offset axis of full width: result element
  `(r, c)` is `x` at row `rows[r]` (read signed, clamped into `[0, N − 1]`) and column `c`.
  `x.at[rows].set(u)` lowers to a `stablehlo.scatter` with the same column of indices, the row axis inserted and
  the column axis a window axis: update element `(r, c)` lands at row `rows[r]` (read signed, NOT clamped) and
  column `c`, when that row is inside the operand, and is dropped otherwise.
  Below: the gather read at `(r, c)`; and for the scatter, where update `(r, c)` lands, in both directions.
-/
import Idealize.ShloMosaic.Lib.ValueIdx

namespace Idealize.ShloMosaic.RowIndex

open Idealize.ShloMosaic Idealize.ShloMosaic.ValueIdx

variable {α : Type} {N R C w : Nat}

/-- The start-indices index `[r, 0]`: where row `r` of the result (or of the updates) reads its row index. -/
abbrev startAt (r : Fin R) : (⟨2, ![R, 1]⟩ : Shape).Idx := ix2 r ⟨0, Nat.one_pos⟩

/-! ## Taking rows -/

/-- The gather's dimension numbers for `x[rows]`, `x : [N, C]`, `rows` a column `[R, 1]`. -/
abbrev takeRowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row the gather reads for result row `r`: the start index read signed and clamped. -/
theorem takeRows_row (wf) (idx : IVec ⟨2, ![R, 1]⟩ w) (r : Fin R) (c : Fin C) :
    ((takeRowsDims N R C wf).operandIdx (ix2 r c) idx 0).val = min (idx (startAt r)).toInt.toNat (N - 1) := by
  show (takeRowsDims N R C wf).start (ix2 r c) idx 0 + (takeRowsDims N R C wf).batchCoord (ix2 r c) 0
    + (takeRowsDims N R C wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (takeRowsDims N R C wf).startIndexMap from List.mem_singleton.mpr rfl)]
  have hsi : (takeRowsDims N R C wf).siIdx (ix2 r c) ⟨List.idxOf (0 : Fin 2) (takeRowsDims N R C wf).startIndexMap,
      List.idxOf_lt_length_iff.2 (List.mem_singleton.mpr rfl)⟩ = startAt r := by
    funext b; refine Fin.ext ?_
    match b with
    | ⟨0, _⟩ => rfl
    | ⟨1, _⟩ => rfl
  rw [hsi]
  rfl

/-- The column the gather reads for result column `c`: the same column. -/
theorem takeRows_col (wf) (idx : IVec ⟨2, ![R, 1]⟩ w) (r : Fin R) (c : Fin C) :
    ((takeRowsDims N R C wf).operandIdx (ix2 r c) idx 1).val = c.val := by
  show (takeRowsDims N R C wf).start (ix2 r c) idx 1 + (takeRowsDims N R C wf).batchCoord (ix2 r c) 1
    + (takeRowsDims N R C wf).offCoord (ix2 r c) 1 = _
  rw [GatherDims.batchCoord_eq_zero _ _ _ List.not_mem_nil]
  unfold GatherDims.start
  rw [dif_neg (show ¬ ((1 : Fin 2) ∈ ([0] : List (Fin 2))) from by decide)]
  unfold GatherDims.offCoord
  rw [dif_pos ((GatherDims.mem_sKept _ _).mpr ⟨(show ¬ ((1 : Fin 2) ∈ ([0] : List (Fin 2))) from by decide), List.not_mem_nil⟩)]
  simp only [Nat.zero_add]
  rfl

/-- `x[rows]` AT `(r, c)`: `x` at the row `rows[r]` names, read signed and clamped into `[0, N − 1]`, and column `c`. -/
theorem gather_rows_apply (hN : 0 < N) (wf) (x : (⟨2, ![N, C]⟩ : Shape).Idx → α) (idx : IVec ⟨2, ![R, 1]⟩ w)
    (r : Fin R) (c : Fin C) :
    Host.gather (takeRowsDims N R C wf) x idx (ix2 r c)
      = x (ix2 ⟨min (idx (startAt r)).toInt.toNat (N - 1), by omega⟩ c) := by
  unfold Host.gather
  congr 1
  funext a
  refine Fin.ext ?_
  match a with
  | ⟨0, _⟩ => exact takeRows_row wf idx r c
  | ⟨1, _⟩ => exact takeRows_col wf idx r c

/-! ## Putting rows -/

/-- The scatter's dimension numbers for `x.at[rows].set(u)`, `x : [N, C]`, `rows` a column `[R, 1]`, `u : [R, C]`. -/
abbrev putRowsDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis an update's window starts at its row index, read signed; -/
theorem putRows_start_row (wf) (idx : IVec ⟨2, ![R, 1]⟩ w) (r : Fin R) (c : Fin C) :
    (putRowsDims N R C wf).start (ix2 r c) idx 0 = (idx (startAt r)).toInt := by
  unfold ScatterDims.start
  rw [dif_pos (show (0 : Fin 2) ∈ (putRowsDims N R C wf).scatterDimsToOperandDims from List.mem_singleton.mpr rfl)]
  have hsi : (putRowsDims N R C wf).siIdx (ix2 r c) ⟨List.idxOf (0 : Fin 2) (putRowsDims N R C wf).scatterDimsToOperandDims,
      List.idxOf_lt_length_iff.2 (List.mem_singleton.mpr rfl)⟩ = startAt r := by
    funext b; refine Fin.ext ?_
    match b with
    | ⟨0, _⟩ => rfl
    | ⟨1, _⟩ => rfl
  rw [hsi]

/-- on the column axis at zero. -/
theorem putRows_start_col (wf) (idx : IVec ⟨2, ![R, 1]⟩ w) (r : Fin R) (c : Fin C) :
    (putRowsDims N R C wf).start (ix2 r c) idx 1 = 0 := by
  unfold ScatterDims.start
  rw [dif_neg (show ¬ ((1 : Fin 2) ∈ ([0] : List (Fin 2))) from by decide)]

/-- The window coordinate is zero on the (inserted) row axis -/
theorem putRows_window_row (wf) (r : Fin R) (c : Fin C) : (putRowsDims N R C wf).window (ix2 r c) 0 = 0 := by
  unfold ScatterDims.window
  have h : ¬ (0 : Fin 2) ∈ (putRowsDims N R C wf).sKept := by simp [ScatterDims.sKept, Shape.kept]
  rw [dif_neg h]

/-- and the update's column on the column axis. -/
theorem putRows_window_col (wf) (r : Fin R) (c : Fin C) : (putRowsDims N R C wf).window (ix2 r c) 1 = c.val := by
  unfold ScatterDims.window
  have h : (1 : Fin 2) ∈ (putRowsDims N R C wf).sKept := by simp [ScatterDims.sKept, Shape.kept]
  rw [dif_pos h]
  rfl

/-- WHERE AN UPDATE LANDS, forwards: if the row index of update row `r` reads, signed, as a row `p` of the operand,
    update element `(r, c)` lands at `(p, c)`. -/
theorem putRows_resultIdx_of_eq (wf) (idx : IVec ⟨2, ![R, 1]⟩ w) (r : Fin R) (c : Fin C) (p : Fin N)
    (h : (idx (startAt r)).toInt = (p.val : Int)) :
    (putRowsDims N R C wf).resultIdx? (ix2 r c) idx = some (ix2 p c) := by
  have hp := p.isLt
  have hc := c.isLt
  unfold ScatterDims.resultIdx?
  rw [dif_pos ((Fin.forall_fin_two (p := fun a => 0 ≤ (putRowsDims N R C wf).start (ix2 r c) idx a
      + (putRowsDims N R C wf).window (ix2 r c) a ∧ (putRowsDims N R C wf).start (ix2 r c) idx a
      + (putRowsDims N R C wf).window (ix2 r c) a < ((⟨2, ![N, C]⟩ : Shape).size a : Int))).mpr
    ⟨by rw [putRows_start_row, putRows_window_row, h]; exact ⟨by omega, by show (p.val : Int) + (0 : Nat) < (N : Int); omega⟩,
     by rw [putRows_start_col, putRows_window_col]; exact ⟨by omega, by show (0 : Int) + (c.val : Int) < (C : Int); omega⟩⟩)]
  congr 1
  funext a
  refine Fin.ext ?_
  match a with
  | ⟨0, _⟩ =>
    show ((putRowsDims N R C wf).start (ix2 r c) idx 0 + (putRowsDims N R C wf).window (ix2 r c) 0).toNat = p.val
    rw [putRows_start_row, putRows_window_row, h]; omega
  | ⟨1, _⟩ =>
    show ((putRowsDims N R C wf).start (ix2 r c) idx 1 + (putRowsDims N R C wf).window (ix2 r c) 1).toNat = c.val
    rw [putRows_start_col, putRows_window_col]; omega

/-- WHERE AN UPDATE LANDS, backwards: if update element `(r, c)` lands at `i`, its row index reads, signed, as
    `i`'s row, and `c` is `i`'s column. -/
theorem putRows_resultIdx_eq_some (wf) (idx : IVec ⟨2, ![R, 1]⟩ w) (r : Fin R) (c : Fin C)
    (i : (⟨2, ![N, C]⟩ : Shape).Idx) (h : (putRowsDims N R C wf).resultIdx? (ix2 r c) idx = some i) :
    (idx (startAt r)).toInt = ((i 0).val : Int) ∧ (i 1).val = c.val := by
  unfold ScatterDims.resultIdx? at h
  split at h
  · next hall =>
    have hi := Option.some.inj h
    have h0 := hall 0
    have e0 : (i 0).val = ((putRowsDims N R C wf).start (ix2 r c) idx 0 + (putRowsDims N R C wf).window (ix2 r c) 0).toNat := by
      rw [← hi]
    have e1 : (i 1).val = ((putRowsDims N R C wf).start (ix2 r c) idx 1 + (putRowsDims N R C wf).window (ix2 r c) 1).toNat := by
      rw [← hi]
    rw [putRows_start_row, putRows_window_row] at h0 e0
    rw [putRows_start_col, putRows_window_col] at e1
    exact ⟨by omega, by omega⟩
  · exact absurd h (by simp)

end Idealize.ShloMosaic.RowIndex
-- ==== Proof.RefValue.lean ====
/-
  What the reference's result holds at an index.

  The row table is `0, 1, …, 255`; wrapped by the operand's 1024 rows it is unchanged, so as a signed integer
  entry `r` reads `r`. Hence the gather takes rows `0 … 255` of the pointwise values `refVec`, and the scatter
  puts update row `r` at row `r` of a zero array: row `p < 256` of the result is hit by exactly the update row
  `p` and holds `refVec` there, and a row `p ≥ 256` is hit by no update and keeps its zero.
-/
import proofs.«146309_g37744172598002_cont_sun_m_442_3_alg».proof.Proof.RefRun
import proofs.«146309_g37744172598002_cont_sun_m_442_3_alg».proof.Proof.LibScatterSet
import proofs.«146309_g37744172598002_cont_sun_m_442_3_alg».proof.Proof.LibRowIndex

noncomputable section

namespace Cert.ReferenceIdeal.RefValue

open Cert.ReferenceIdeal Cert.ReferenceIdeal.Gen Cert.ReferenceIdeal.HandRun
open Idealize.ShloMosaic Idealize.ShloMosaic.ValueIdx Idealize.ShloMosaic.RowIndex Idealize.ShloMosaic.ScatterSet

variable {F : FTy → Type} [FloatOps F]

/-! ## The row table -/

/-- Entry `k` of the table after the wrap of negative entries. -/
def wrapped (k : Fin 256) : BitVec 32 :=
  Scalar.select (IntOp.cmpi .slt (lit0 k) 0#32) (IntOp.addi (lit0 k) 1024#32) (lit0 k)

/-- Read signed, entry `k` is `k`: checked entry by entry. -/
theorem wrapped_toInt : ∀ k : Fin 256, (wrapped k).toInt = (k.val : Int) := by decide +kernel

/-- The start index of row `r`, as the column `rowIdx` holds it: the wrapped table's entry at `r`. -/
theorem rowIdx_apply (r : Fin 256) : rowIdx (startAt r) = wrapped r := by
  have hcol : ∀ v : S256.Idx → BitVec 32, broadcastInDim S256x1 ![0] bcast_S256_S256x1_0 v (startAt r) = v (ix1 r) := by
    intro v
    simp only [broadcastInDim]
    congr 1
    funext a
    obtain rfl : a = 0 := Subsingleton.elim _ _
    rfl
  have key : ∀ k : Fin 256, k.val = r.val →
      Scalar.select (IntOp.cmpi .slt (lit0 k) 0#32) (IntOp.addi (lit0 k) 1024#32) (lit0 k) = wrapped r := by
    intro k hk
    obtain rfl : k = r := Fin.ext hk
    rfl
  unfold rowIdx
  rw [hcol]
  exact key _ (Shape.rowMajor_val_one _)

/-- Read signed, the start index of row `r` is `r`. -/
theorem rowIdx_toInt (r : Fin 256) : (rowIdx (startAt r)).toInt = (r.val : Int) := by
  rw [rowIdx_apply, wrapped_toInt]

/-! ## The gather and the scatter at these dimension numbers -/

/-- The program's gather record is the row-taking one. -/
theorem gather_dims_eq : gather_S1024x128_S256x1_S256x128_1_0_n_n_0_1_1128
    = takeRowsDims 1024 256 128 Facts₀.gather_S1024x128_S256x1_S256x128_1_0_n_n_0_1_1128_wf := rfl

/-- The program's scatter record is the row-putting one. -/
theorem scatter_dims_eq : scatter_S1024x128_S256x1_S256x128_1_0_0_1
    = putRowsDims 1024 256 128 Facts₀.scatter_S1024x128_S256x1_S256x128_1_0_0_1_wf := rfl

/-- The gathered rows: row `r` of the gather is row `r` of the operand. -/
theorem gathered_apply (v : FVec F S1024x128 .f32) (r : Fin 256) (c : Fin 128) :
    Host.gather gather_S1024x128_S256x1_S256x128_1_0_n_n_0_1_1128 v rowIdx (ix2 r c)
      = v (ix2 ⟨r.val, by omega⟩ c) := by
  show Host.gather (takeRowsDims 1024 256 128 Facts₀.gather_S1024x128_S256x1_S256x128_1_0_n_n_0_1_1128_wf) v rowIdx
    (ix2 r c) = _
  rw [gather_rows_apply (by decide)]
  congr 1
  funext a; refine Fin.ext ?_
  have h := rowIdx_toInt r
  have hr := r.isLt
  match a with
  | ⟨0, _⟩ => show min (rowIdx (startAt r)).toInt.toNat (1024 - 1) = r.val; omega
  | ⟨1, _⟩ => rfl

/-! ## The result at an index -/

/-- A row below 256 holds the pointwise values. -/
theorem refOut_apply_lt (x : FVec F S1024x100 .f32) (e : FVec F S100x128 .f32) (p : Fin 1024) (q : Fin 128)
    (hp : p.val < 256) : refOut x e (ix2 p q) = refVec x e (ix2 p q) := by
  unfold refOut
  show Host.scatter (putRowsDims 1024 256 128 Facts₀.scatter_S1024x128_S256x1_S256x128_1_0_0_1_wf) (fun _ b => b) _ rowIdx _
    (ix2 p q) = _
  refine scatter_set_apply_of_hit _ _ _ _ (ix2 p q) _ (ix2 (⟨p.val, hp⟩ : Fin 256) q)
    (putRows_resultIdx_of_eq _ rowIdx ⟨p.val, hp⟩ q p (rowIdx_toInt ⟨p.val, hp⟩)) ?_
  intro j hj
  obtain ⟨r, c, rfl⟩ : ∃ (r : Fin 256) (c : Fin 128), j = ix2 r c := ⟨j 0, j 1, eq_ix2 j⟩
  obtain ⟨h0, h1⟩ := putRows_resultIdx_eq_some _ rowIdx r c _ hj
  rw [rowIdx_toInt r] at h0
  rw [gathered_apply]
  congr 1
  funext a; refine Fin.ext ?_
  match a with
  | ⟨0, _⟩ => show r.val = p.val; exact Int.ofNat_inj.mp h0
  | ⟨1, _⟩ => show c.val = q.val; exact h1.symm

/-- A row from 256 on holds the zero it started with. -/
theorem refOut_apply_ge (x : FVec F S1024x100 .f32) (e : FVec F S100x128 .f32) (p : Fin 1024) (q : Fin 128)
    (hp : 256 ≤ p.val) : refOut x e (ix2 p q) = FloatOps.ofBits .f32 0x00000000#32 := by
  unfold refOut
  show Host.scatter (putRowsDims 1024 256 128 Facts₀.scatter_S1024x128_S256x1_S256x128_1_0_0_1_wf) (fun _ b => b) _ rowIdx _
    (ix2 p q) = _
  rw [scatter_set_apply_of_forall_ne]
  · rfl
  · intro j hj
    obtain ⟨r, c, rfl⟩ : ∃ (r : Fin 256) (c : Fin 128), j = ix2 r c := ⟨j 0, j 1, eq_ix2 j⟩
    obtain ⟨h0, -⟩ := putRows_resultIdx_eq_some _ rowIdx r c _ hj
    rw [rowIdx_toInt r] at h0
    have hr := r.isLt
    have : r.val = p.val := Int.ofNat_inj.mp h0
    omega

end Cert.ReferenceIdeal.RefValue

end
-- ==== Proof.Spec.lean ====
/-
  The bi-interaction pooling both programs compute, as one function of the two argument arrays.

  For a batch `x : [1024, 100]` and an embedding table `E : [100, 128]`, row `p < 256` of the result is
      ½ · ( (∑ₖ x[p,k]·E[k,q])² − ∑ₖ x[p,k]²·E[k,q]² ),
  the pairwise-interaction sum `∑_{k<k'} (x[p,k]E[k,q]) (x[p,k']E[k',q])` in its usual closed form, and every row
  from 256 on is zero. The arithmetic is that of the extended reals; `½` and `0` are kept as the float words
  both programs spell them with. The square is spelt as a product and the two sums are kept apart, as both
  programs do: nothing is rearranged, so no finiteness is needed.
-/
import Idealize.ShloMosaic.Lib.ValueIdx

open scoped BigOperators

noncomputable section

namespace Cert.Spec

open Idealize.ShloMosaic Idealize.ShloMosaic.ValueIdx

variable (x : (⟨2, ![1024, 100]⟩ : Shape).Idx → EReal) (e : (⟨2, ![100, 128]⟩ : Shape).Idx → EReal)

/-- `(x · E)[p, q]`. -/
def lin (p : Fin 1024) (q : Fin 128) : EReal := ∑ k : Fin 100, x (ix2 p k) * e (ix2 k q)

/-- `(x² · E²)[p, q]`, the squares taken entry by entry. -/
def quad (p : Fin 1024) (q : Fin 128) : EReal :=
  ∑ k : Fin 100, x (ix2 p k) * x (ix2 p k) * (e (ix2 k q) * e (ix2 k q))

/-- The pooled value at `(p, q)`. -/
def pooled (p : Fin 1024) (q : Fin 128) : EReal :=
  Ideal.ofBits .f32 0x3F000000#32 * (lin x e p q * lin x e p q - quad x e p q)

/-- The result array: the pooled values on the first 256 rows, zero below them. -/
def G : (⟨2, ![1024, 128]⟩ : Shape).Idx → EReal := fun i =>
  if (i 0).val < 256 then pooled x e ⟨(i 0).val, idx2_lt0 i⟩ ⟨(i 1).val, idx2_lt1 i⟩
  else Ideal.ofBits .f32 0x00000000#32

theorem G_lt (p : Fin 1024) (q : Fin 128) (h : p.val < 256) : G x e (ix2 p q) = pooled x e p q := if_pos h

theorem G_ge (p : Fin 1024) (q : Fin 128) (h : 256 ≤ p.val) : G x e (ix2 p q) = Ideal.ofBits .f32 0x00000000#32 :=
  if_neg (Nat.not_lt.mpr h)

end Cert.Spec

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.RefSpec.lean ====
/-
  The reference's result is the specification.

  On a row below 256 the reference holds `½ · ((x·E)·(x·E) − x²·E²)` with both products host `dot_general`s: read
  at `(p, q)` each is the sum over the 100 contracted positions, and the entrywise squares read through, which is
  the specification's `pooled` term for term. On a row from 256 on it holds the zero word.
-/
import proofs.«146309_g37744172598002_cont_sun_m_442_3_alg».proof.Proof.RefValue
import proofs.«146309_g37744172598002_cont_sun_m_442_3_alg».proof.Proof.Spec
import proofs.«146309_g37744172598002_cont_sun_m_442_3_alg».proof.Proof.LibPlainDot

open scoped BigOperators

noncomputable section

namespace Cert.ReferenceIdeal.RefSpec

open Cert.ReferenceIdeal Cert.ReferenceIdeal.Gen Cert.ReferenceIdeal.HandRun Cert.ReferenceIdeal.RefValue
open Idealize.ShloMosaic Idealize.ShloMosaic.ValueIdx Idealize.ShloMosaic.PlainDot

/-- The reference's product record read at `(p, q)`: the sum over the contracted axis. -/
theorem dot_apply (l : FVec Ideal S1024x100 .f32) (r : FVec Ideal S100x128 .f32) (p : Fin 1024) (q : Fin 128) :
    Host.dotGeneral dot_S1024x100_S100x128_S1024x128_1_0_0_1_n_n none l r (ix2 p q)
      = ∑ k : Fin 100, l (ix2 p k) * r (ix2 k q) :=
  dotGeneral_apply dot_S1024x100_S100x128_S1024x128_1_0_0_1_n_n rfl rfl rfl rfl rfl rfl rfl rfl none l r p q

/-- The pointwise values at `(p, q)` are the specification's pooled value. -/
theorem refVec_apply (x : FVec Ideal S1024x100 .f32) (e : FVec Ideal S100x128 .f32) (p : Fin 1024) (q : Fin 128) :
    refVec x e (ix2 p q) = Cert.Spec.pooled x e p q := by
  unfold refVec Cert.Spec.pooled Cert.Spec.lin Cert.Spec.quad
  show Ideal.ofBits .f32 0x3F000000#32
      * (Host.dotGeneral dot_S1024x100_S100x128_S1024x128_1_0_0_1_n_n none x e (ix2 p q)
          * Host.dotGeneral dot_S1024x100_S100x128_S1024x128_1_0_0_1_n_n none x e (ix2 p q)
        - Host.dotGeneral dot_S1024x100_S100x128_S1024x128_1_0_0_1_n_n none (mulf x x) (mulf e e) (ix2 p q)) = _
  rw [dot_apply, dot_apply]
  rfl

/-- THE REFERENCE IS THE SPECIFICATION. -/
theorem refOut_eq (x : FVec Ideal S1024x100 .f32) (e : FVec Ideal S100x128 .f32) : refOut x e = Cert.Spec.G x e := by
  funext i
  obtain ⟨p, q, rfl⟩ : ∃ (p : Fin 1024) (q : Fin 128), i = ix2 p q := ⟨i 0, i 1, eq_ix2 i⟩
  by_cases hp : p.val < 256
  · rw [refOut_apply_lt x e p q hp, Cert.Spec.G_lt x e p q hp, refVec_apply]
  · rw [refOut_apply_ge x e p q (Nat.le_of_not_lt hp), Cert.Spec.G_ge x e p q (Nat.le_of_not_lt hp)]
    rfl

end Cert.ReferenceIdeal.RefSpec

end
-- ==== Proof.KernelValue.lean ====
/-
  What the kernel leaves in its result array.

  The kernel runs at a single grid point whose output block is the whole `[1024, 128]` array. Its body stores two
  pieces into the output staging buffer: rows `0 … 255` get `½ · ((x₀·E)·(x₀·E) − x₀²·E²)` of the loaded blocks
  (`x₀` the first 256 rows of the batch, `E` the whole table), and rows `256 … 1023` get the zero word. The two
  rectangles tile the buffer, so what the body leaves is ONE function of the buffer's index (`blockFn`): each
  piece is a block of it. Read at an index, both matrix products are sums over the 100 contracted positions, the
  input blocks are the argument arrays at the same coordinates (every block index is zero), and the result is the
  specification.
-/
import proofs.«146309_g37744172598002_cont_sun_m_442_3_alg».proof.Proof.Gen.KernelIdeal.Value
import proofs.«146309_g37744172598002_cont_sun_m_442_3_alg».proof.Proof.Spec
import proofs.«146309_g37744172598002_cont_sun_m_442_3_alg».proof.Proof.LibPlainDot

set_option maxRecDepth 16384

open scoped BigOperators

noncomputable section

namespace Cert.KernelIdeal.KValue

open Cert.KernelIdeal Cert.KernelIdeal.Gen Cert.KernelIdeal.Value
open Idealize.ShloMosaic Idealize.ShloMosaic.TcCoe Idealize.SL.Sem Idealize.ShloMosaic.Tactic
open Idealize.ShloMosaic.Pipeline (Dat)
open Idealize.ShloMosaic.ValueIdx Idealize.ShloMosaic.PlainDot

variable (m : (ℓ : Loc nD τ sig) → Buf (Elt Ideal) ℓ) (ρ : Dev nD → PrngReg)

theorem hz : (![0, 0] : Fin 2 → Nat) = fun _ => 0 := funext fun a => by fin_cases a <;> rfl

/-! ## The body's payload at an index -/

/-- The kernel's product record read at `(p, q)`: the sum over the contracted axis. -/
theorem mm_apply (l : FVec Ideal S256x100 .f32) (r : FVec Ideal S100x128 .f32) (p : Fin 256) (q : Fin 128) :
    matmul dot_S256x100_S100x128_S256x128_1_0_0_1_n_n none l r (constant S256x128 .f32 0x00000000#32) (ix2 p q)
      = ∑ k : Fin 100, l (ix2 p k) * r (ix2 k q) :=
  matmul_zero_apply dot_S256x100_S100x128_S256x128_1_0_0_1_n_n rfl rfl rfl rfl rfl rfl rfl rfl none l r p q

/-- The stored value of the first piece at `(p, q)`: `½ · (L · L − Q)`, `L` and `Q` the two contraction sums. -/
theorem pay1_apply (x0 : Vec Ideal S256x100 .f32) (x1 : Vec Ideal S100x128 .f32) (p : Fin 256) (q : Fin 128) :
    k0_pay1 x0 x1 (ix2 p q)
      = Ideal.ofBits .f32 0x3F000000#32
        * ((∑ k : Fin 100, x0 (ix2 p k) * x1 (ix2 k q)) * (∑ k : Fin 100, x0 (ix2 p k) * x1 (ix2 k q))
          - ∑ k : Fin 100, x0 (ix2 p k) * x0 (ix2 p k) * (x1 (ix2 k q) * x1 (ix2 k q))) := by
  unfold k0_pay1
  show Ideal.ofBits .f32 0x3F000000#32
      * (matmul dot_S256x100_S100x128_S256x128_1_0_0_1_n_n none x0 x1 (constant S256x128 .f32 0x00000000#32) (ix2 p q)
          * matmul dot_S256x100_S100x128_S256x128_1_0_0_1_n_n none x0 x1 (constant S256x128 .f32 0x00000000#32) (ix2 p q)
        - matmul dot_S256x100_S100x128_S256x128_1_0_0_1_n_n none (mulf x0 x0) (mulf x1 x1)
            (constant S256x128 .f32 0x00000000#32) (ix2 p q)) = _
  rw [mm_apply, mm_apply]
  rfl

/-! ## What the body leaves in the output buffer -/

/-- The output staging buffer after the body, as one function of its index: the stored product expression on the
    first 256 rows, the zero word below. -/
def blockFn (x0 : Vec Ideal S256x100 .f32) (x1 : Vec Ideal S100x128 .f32) : Vec Ideal S1024x128 .f32 := fun y =>
  if h : (y 0).val < 256 then k0_pay1 x0 x1 (ix2 ⟨(y 0).val, h⟩ ⟨(y 1).val, idx2_lt1 y⟩)
  else (Scalar.ofBits .f32 0x00000000#32 : Ideal .f32)

/-- The two stored pieces are blocks of `blockFn`, and they cover the buffer. -/
theorem out_eq (c : Dev nD) (i : grid0.Coords) (arg1 : Memref sig .tc .vmem S256x100 .f32) (harg1 : arg1.IsWhole)
    (arg2 : Memref sig .tc .vmem S100x128 .f32) (harg2 : arg2.IsWhole) (arg3 : Memref sig .tc .vmem S1024x128 .f32)
    (harg3 : arg3.IsWhole) (x0 : Vec Ideal S256x100 .f32) (x1 : Vec Ideal S100x128 .f32) :
    out0_A_2 c i arg1 harg1 arg2 harg2 arg3 harg3 x0 x1 = blockFn x0 x1 := by
  unfold out0_A_2
  rw [View.read_writes_eq_canon _ _ _ (cover0_A_2 c i arg1 harg1 arg2 harg2 arg3 harg3 x0 x1)]
  funext y
  refine View.canon_apply_of_pieces (blockFn x0 x1) _ ?_ y (cover0_A_2 c i arg1 harg1 arg2 harg2 arg3 harg3 x0 x1 y)
  unfold kernelRun0_A
  dsimp only
  sl_unfold_words
  simp only [View.readAt_eq_ld, harg1.read_unread, harg2.read_unread, View.ld_unit_zero (S := S256x100) hz,
    View.ld_unit_zero (S := S100x128) hz]
  intro pc hpc
  simp only [List.mem_cons, List.mem_nil_iff, or_false] at hpc
  rcases hpc with rfl | rfl
  · -- rows 256 … 1023: the zero fill
    intro z
    show k0_pay2 (F := Ideal) z = blockFn x0 x1 _
    unfold blockFn
    split
    · next h =>
      have h' : 256 + 1 * (z 0).val < 256 := h
      omega
    · rfl
  · -- rows 0 … 255: the computed block
    intro z
    have hz0 : (z 0).val < 256 := (z 0).isLt
    show k0_pay1 x0 x1 z = blockFn x0 x1 _
    unfold blockFn
    split
    · refine congrArg (k0_pay1 x0 x1) ?_
      funext a; refine Fin.ext ?_
      match a with
      | ⟨0, _⟩ => show (z 0).val = 0 + 1 * (z 0).val; omega
      | ⟨1, _⟩ => show (z 1).val = 0 + 1 * (z 1).val; omega
    · next h =>
      have h' : ¬ (0 + 1 * (z 0).val < 256) := h
      omega

/-- With the input blocks read off the argument arrays at the same coordinates, `blockFn` is the specification. -/
theorem blockFn_eq_spec (x0 : Vec Ideal S256x100 .f32) (x1 : Vec Ideal S100x128 .f32)
    (a0 : (⟨2, ![1024, 100]⟩ : Shape).Idx → EReal) (a1 : (⟨2, ![100, 128]⟩ : Shape).Idx → EReal)
    (h0 : ∀ (p : Fin 256) (k : Fin 100), x0 (ix2 p k) = a0 (ix2 ⟨p.val, by omega⟩ k))
    (h1 : ∀ (k : Fin 100) (q : Fin 128), x1 (ix2 k q) = a1 (ix2 k q)) (y : S1024x128.Idx) :
    blockFn x0 x1 y = Cert.Spec.G a0 a1 y := by
  obtain ⟨p, q, rfl⟩ : ∃ (p : Fin 1024) (q : Fin 128), y = ix2 p q := ⟨y 0, y 1, eq_ix2 y⟩
  by_cases hp : p.val < 256
  · rw [Cert.Spec.G_lt a0 a1 p q hp]
    unfold blockFn
    rw [dif_pos (show ((ix2 p q : S1024x128.Idx) 0).val < 256 from hp)]
    refine (pay1_apply x0 x1 ⟨p.val, hp⟩ ⟨q.val, q.isLt⟩).trans ?_
    unfold Cert.Spec.pooled Cert.Spec.lin Cert.Spec.quad
    simp only [h0, h1]
  · rw [Cert.Spec.G_ge a0 a1 p q (Nat.le_of_not_lt hp)]
    unfold blockFn
    rw [dif_neg (show ¬ ((ix2 p q : S1024x128.Idx) 0).val < 256 from hp)]
    rfl

/-! ## From the one block to the array -/

/-- Every block index of every window is zero at the one grid point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- WHAT THE POINT WRITES BACK is the block of the specification (of the argument arrays as the region finds them). -/
theorem flushed_eq (c : Dev nD) (t : Fin cfg0.N) :
    (dats m 0 c).flushed 2 t
      = ((cfg0.win 2).blk t).view.read (Elt Ideal) (Cert.Spec.G (V m c main_arg0) (V m c main_arg1)) := by
  rw [flushed2_A, out_eq]
  obtain ⟨e0, e1, e2, e3, e4, e5⟩ := idx_facts t
  funext j
  show blockFn (iblk m c 0 t) (iblk m c 1 t) j
    = Cert.Spec.G (V m c main_arg0) (V m c main_arg1) (((cfg0.win 2).blk t).view.emb j)
  refine (blockFn_eq_spec (iblk m c 0 t) (iblk m c 1 t) (V m c main_arg0) (V m c main_arg1) ?_ ?_ j).trans
    (congrArg (Cert.Spec.G (V m c main_arg0) (V m c main_arg1)) ?_)
  · intro p k
    show V m c main_arg0 (((cfg0.win 0).blk t).view.emb (ix2 p k)) = _
    refine congrArg (V m c main_arg0) ?_
    funext a; refine Fin.ext ?_
    match a with
    | ⟨0, _⟩ => show win0_0.index t (0 : Fin 2) * 256 + 1 * p.val = p.val; omega
    | ⟨1, _⟩ => show win0_0.index t (1 : Fin 2) * 100 + 1 * k.val = k.val; omega
  · intro k q
    show V m c main_arg1 (((cfg0.win 1).blk t).view.emb (ix2 k q)) = _
    refine congrArg (V m c main_arg1) ?_
    funext a; refine Fin.ext ?_
    match a with
    | ⟨0, _⟩ => show win0_1.index t (0 : Fin 2) * 100 + 1 * k.val = k.val; omega
    | ⟨1, _⟩ => show win0_1.index t (1 : Fin 2) * 128 + 1 * q.val = q.val; omega
  · funext a; refine Fin.ext ?_
    match a with
    | ⟨0, _⟩ => show (j 0).val = win0_2.index t (0 : Fin 2) * 1024 + 1 * (j 0).val; omega
    | ⟨1, _⟩ => show (j 1).val = win0_2.index t (1 : Fin 2) * 128 + 1 * (j 1).val; omega

/-- An index of the array is in the point's block iff each coordinate is in the block's range on its axis. -/
theorem mem_blk (t : Fin cfg0.N) (i : S1024x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v0).slice (win0_2.rect t)).set ↔ _
  rw [View.set_slice_whole, Rect.mem_set_unit]
  exact Iff.rfl

/-- The one block is the whole array. -/
theorem cover (i : S1024x128.Idx) : ∃ t : Fin cfg0.N, (cfg0.win 2).flush t = true ∧ i ∈ ((cfg0.win 2).blk t).view.set := by
  have hi0 : (i 0).val < 1024 := (i 0).isLt
  have hi1 : (i 1).val < 128 := (i 1).isLt
  refine ⟨⟨0, by decide⟩, flush0_2 _, ?_⟩
  obtain ⟨e0, e1, e2, e3, e4, e5⟩ := idx_facts ⟨0, by decide⟩
  rw [mem_blk]
  intro a
  match a with
  | ⟨0, _⟩ =>
    show win0_2.index ⟨0, _⟩ (0 : Fin 2) * 1024 ≤ (i 0).val ∧ (i 0).val < win0_2.index ⟨0, _⟩ (0 : Fin 2) * 1024 + 1024
    omega
  | ⟨1, _⟩ =>
    show win0_2.index ⟨0, _⟩ (1 : Fin 2) * 128 ≤ (i 1).val ∧ (i 1).val < win0_2.index ⟨0, _⟩ (1 : Fin 2) * 128 + 128
    omega

/-- THE RESULT ARRAY after the run is the specification of the argument arrays. -/
theorem final (c : Dev nD) :
    (dats m 0 c).arrAt 2 cfg0.N
      = Cert.Spec.G (m ((c : Thread nD τ).loc main_arg0)) (m ((c : Thread nD τ).loc main_arg1)) :=
  (dats m 0 c).arrAt_eq_of_cover 2 _ (fun t _ => flushed_eq m c t) cover

/-- The kernel's run with its result array named. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KValue

end
-- ==== Proof.lean ====
/-
  FM-style bi-interaction pooling: a one-point Pallas kernel against its jnp reference, over the extended reals.

  For a batch `x : [1024, 100]` and an embedding table `E : [100, 128]` both programs return the array whose row
  `p < 256` is `½ · ((x·E)[p,·]² − (x²·E²)[p,·])` and whose rows from 256 on are zero (`Cert.Spec.G`).
    * The kernel loads the first 256 rows of `x` and all of `E`, forms the two matrix products on the matrix unit
      into zero accumulators, combines them pointwise, stores the `[256, 128]` result into rows `0 … 255` of its
      output block and the zero word into rows `256 … 1023`; the block is the whole result array.
    * The reference forms the same expression over all 1024 rows with host `dot_general`s, gathers rows
      `0 … 255` through the literal row table and scatters them, by overwriting, into a zero array at the same rows.
  At the ideal values a matrix product into zero and a `dot_general` are the same sum over the contracted axis, so
  on the first 256 rows the two sides agree term for term; the row table is the identity on `0 … 255`, each of these
  rows is hit by exactly one update and no other row by any. Nothing is rearranged, so the precondition (finite
  inputs) is not used. The ideal pass rewrote nothing: `preserves` is `True`.
  The frames of the two kernel programs and the kernel's value leg are the generated modules; the reference's run,
  the reading of its gather and scatter, and the bridge to the specification are in the modules imported below.
-/
import proofs.«146309_g37744172598002_cont_sun_m_442_3_alg».proof.Defs
import proofs.«146309_g37744172598002_cont_sun_m_442_3_alg».proof.Proof.Gen.Kernel
import proofs.«146309_g37744172598002_cont_sun_m_442_3_alg».proof.Proof.Gen.Kernel.Skeleton
import proofs.«146309_g37744172598002_cont_sun_m_442_3_alg».proof.Proof.Gen.Kernel.Launch
import proofs.«146309_g37744172598002_cont_sun_m_442_3_alg».proof.Proof.Gen.Kernel.Points
import proofs.«146309_g37744172598002_cont_sun_m_442_3_alg».proof.Proof.Gen.Kernel.Frame
import proofs.«146309_g37744172598002_cont_sun_m_442_3_alg».proof.Proof.Gen.KernelIdeal
import proofs.«146309_g37744172598002_cont_sun_m_442_3_alg».proof.Proof.Gen.KernelIdeal.Skeleton
import proofs.«146309_g37744172598002_cont_sun_m_442_3_alg».proof.Proof.Gen.KernelIdeal.Launch
import proofs.«146309_g37744172598002_cont_sun_m_442_3_alg».proof.Proof.Gen.KernelIdeal.Points
import proofs.«146309_g37744172598002_cont_sun_m_442_3_alg».proof.Proof.Gen.KernelIdeal.Frame
import proofs.«146309_g37744172598002_cont_sun_m_442_3_alg».proof.Proof.Gen.KernelIdeal.Value
import proofs.«146309_g37744172598002_cont_sun_m_442_3_alg».proof.Proof.Gen.ReferenceIdeal
import proofs.«146309_g37744172598002_cont_sun_m_442_3_alg».proof.Proof.Gen.Pre_finite_inputs
import proofs.«146309_g37744172598002_cont_sun_m_442_3_alg».proof.Proof.RefSpec
import proofs.«146309_g37744172598002_cont_sun_m_442_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- From memories that agree on the two arguments, both programs end with the specification of those arguments
    in their result arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefSpec.refOut_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
